-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256 : Shape := ⟨1, ![256]⟩
abbrev S16777216 : Shape := ⟨1, ![16777216]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256 : S_.BroadcastsInDim S256 (![] : Fin 0 → Fin S256.rank)
  reducesTo_S256_S_d0 : S256.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S256 .f32) (main_arg2 : IVec S16777216 32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S256 : Shape := ⟨1, ![256]⟩
abbrev S16777216 : Shape := ⟨1, ![16777216]⟩
abbrev S4096 : Shape := ⟨1, ![4096]⟩
abbrev S_ : Shape := ⟨0, ![]⟩
abbrev S16777216x1 : Shape := ⟨2, ![16777216, 1]⟩
abbrev S4096x4096 : Shape := ⟨2, ![4096, 4096]⟩
abbrev S8192x4096 : Shape := ⟨2, ![8192, 4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 18
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S16777216, .i32⟩
  | .hbm, ⟨3, _⟩ => ⟨S4096, .f32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .i32⟩
  | .hbm, ⟨8, _⟩ => ⟨S16777216, .i32⟩
  | .hbm, ⟨9, _⟩ => ⟨S16777216, .i32⟩
  | .hbm, ⟨10, _⟩ => ⟨S16777216, .i32⟩
  | .hbm, ⟨11, _⟩ => ⟨S16777216x1, .i32⟩
  | .hbm, ⟨12, _⟩ => ⟨S16777216, .f32⟩
  | .hbm, ⟨13, _⟩ => ⟨S4096x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S4x2048x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S4096x4096 : S16777216.ShapeCasts S4096x4096
  shapeCasts_S4x2048x4096_S8192x4096 : S4x2048x4096.ShapeCasts S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  gather_S256_S16777216x1_S16777216_n_0_n_n_0_1_1_wf : GatherDims.WF S256 S16777216x1 S16777216 [] [0] [] [0] [] 1 ![1]
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def gather_S256_S16777216x1_S16777216_n_0_n_n_0_1_1 : GatherDims S256 S16777216x1 S16777216 where
  offsetDims := []
  collapsedSliceDims := [0]
  operandBatchingDims := []
  startIndicesBatchingDims := []
  startIndexMap := [0]
  indexVectorDim := 1
  sliceSizes := ![1]
  wf := gather_S256_S16777216x1_S16777216_n_0_n_n_0_1_1_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v8) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S256 : Shape := ⟨1, ![256]⟩
abbrev S16777216 : Shape := ⟨1, ![16777216]⟩
abbrev S4096 : Shape := ⟨1, ![4096]⟩
abbrev S_ : Shape := ⟨0, ![]⟩
abbrev S16777216x1 : Shape := ⟨2, ![16777216, 1]⟩
abbrev S4096x4096 : Shape := ⟨2, ![4096, 4096]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S16777216, .i32⟩
  | .hbm, ⟨3, _⟩ => ⟨S4096, .f32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .i32⟩
  | .hbm, ⟨8, _⟩ => ⟨S16777216, .i32⟩
  | .hbm, ⟨9, _⟩ => ⟨S16777216, .i32⟩
  | .hbm, ⟨10, _⟩ => ⟨S16777216, .i32⟩
  | .hbm, ⟨11, _⟩ => ⟨S16777216x1, .i32⟩
  | .hbm, ⟨12, _⟩ => ⟨S16777216, .f32⟩
  | .hbm, ⟨13, _⟩ => ⟨S4096x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S4096x4096 : S16777216.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256_S16777216x1_S16777216_n_0_n_n_0_1_1_wf : GatherDims.WF S256 S16777216x1 S16777216 [] [0] [] [0] [] 1 ![1]
  dot_S4x2048x4096_S4096x4096_S4x2048x4096_2_1_01_0_n_n_wf : DotDims.WF S4x2048x4096 S4096x4096 S4x2048x4096 [2] [1] [0, 1] [0] [] []

variable [Facts₀]

def gather_S256_S16777216x1_S16777216_n_0_n_n_0_1_1 : GatherDims S256 S16777216x1 S16777216 where
  offsetDims := []
  collapsedSliceDims := [0]
  operandBatchingDims := []
  startIndicesBatchingDims := []
  startIndexMap := [0]
  indexVectorDim := 1
  sliceSizes := ![1]
  wf := gather_S256_S16777216x1_S16777216_n_0_n_n_0_1_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What each control case of the kernel body leaves behind, as pure terms of the blocks it loaded.

  The body keeps a running block sum in a scratch buffer.  At the first step along the contraction axis it stores
  the zero block and then adds that step's block product to it; at every later step it adds the step's block
  product to what the step before left; at the last step it additionally stores, into the output block, the
  scratch (after this step's update) plus the bias row broadcast down the rows.  Each lemma reads the stores of the
  body's run in that case back as one pure term: a store of the whole buffer through the zero-offset rectangle is the
  stored value, a load of the whole buffer is its contents, and a load after a covering store reads that store.
-/
import proofs.«139722_j23802708754446_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First step of a contraction sweep: the scratch ends at the zero block plus this step's block product. -/
theorem scratch_first (c : Dev nD) (i : grid0.Coords) (a3 : Memref sig .tc .vmem S2048x512 .f32) (h3 : a3.IsWhole) (a4 : Memref sig .tc .vmem S1024x512 .f32) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : cond0_0 i) (hc1 : ¬cond0_1 i)
    (x0 : Vec F S2048x512 .f32) (x1 : Vec F S1024x512 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x512) hz,
    View.ld_unit_zero (S := S1024x512) hz]

/-- A middle step: the scratch ends at what the step before left plus this step's block product. -/
theorem scratch_middle (c : Dev nD) (i : grid0.Coords) (a3 : Memref sig .tc .vmem S2048x512 .f32) (h3 : a3.IsWhole) (a4 : Memref sig .tc .vmem S1024x512 .f32) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : ¬cond0_1 i)
    (x0 : Vec F S2048x512 .f32) (x1 : Vec F S1024x512 .f32) (x2 : Vec F S1x1024 .f32) (xs0 : Vec F S2048x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S2048x512) hz,
    View.ld_unit_zero (S := S1024x512) hz, View.ld_unit_zero (S := S2048x1024) hz]

/-- The last step updates the scratch in the same way … -/
theorem scratch_last (c : Dev nD) (i : grid0.Coords) (a3 : Memref sig .tc .vmem S2048x512 .f32) (h3 : a3.IsWhole) (a4 : Memref sig .tc .vmem S1024x512 .f32) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : cond0_1 i)
    (x0 : Vec F S2048x512 .f32) (x1 : Vec F S1024x512 .f32) (x2 : Vec F S1x1024 .f32) (xs0 : Vec F S2048x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S2048x512) hz,
    View.ld_unit_zero (S := S1024x512) hz, View.ld_unit_zero (S := S2048x1024) hz]

/-- … and stores the updated scratch plus the broadcast bias row into the output block. -/
theorem out_last (c : Dev nD) (i : grid0.Coords) (a3 : Memref sig .tc .vmem S2048x512 .f32) (h3 : a3.IsWhole) (a4 : Memref sig .tc .vmem S1024x512 .f32) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : cond0_1 i)
    (x0 : Vec F S2048x512 .f32) (x1 : Vec F S1024x512 .f32) (x2 : Vec F S1x1024 .f32) (xs0 : Vec F S2048x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, View.readCov_unit_zero (S := S2048x1024) _ hz, h3.read_unread, h4.read_unread,
    h5.read_unread, h7.read_unread, View.ld_unit_zero (S := S2048x512) hz, View.ld_unit_zero (S := S1024x512) hz,
    View.ld_unit_zero (S := S1x1024) hz, View.ld_unit_zero (S := S2048x1024) hz]

end Cert.KernelIdeal.Pieces

end
-- ==== Proof.Payload.lean ====
/-
  The kernel body's three stored values, read at an index over the extended reals.

  * the reset value is zero everywhere;
  * the update at row `r`, column `cc` of the 2048 × 1024 accumulator is the old entry plus
    `∑ j < 512, x (r, j) * w (cc, j)`: the product contracts the SECOND axis of both blocks (x times w transposed),
    the narrowing of both blocks to a shorter float format is the identity on the extended reals, and a product
    into the zero accumulator is the bare sum;
  * the value stored into the output block is the accumulator entry plus the bias row's entry in that column.
-/
import proofs.«139722_j23802708754446_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Payload

open Cert.KernelIdeal Cert.KernelIdeal.Gen

/-- The left operand of the block product is read at the output's row … -/
theorem lhs_mm_0 (i : S2048x1024.Idx) (q : dot_S2048x512_S1024x512_S2048x1024_1_1_0_0_n_n.contr.Idx) :
    (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
/-- … and at the contracted position; -/
theorem lhs_mm_1 (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q
/-- the right operand at the output's COLUMN as its row … -/
theorem rhs_mm_0 (i : S2048x1024.Idx) (q : dot_S2048x512_S1024x512_S2048x1024_1_1_0_0_n_n.contr.Idx) :
    (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
/-- … and at the contracted position. -/
theorem rhs_mm_1 (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- The reset value is zero. -/
theorem reset_apply (i : S2048x1024.Idx) : k0_pay1 (F := Ideal) i = 0 := by
  unfold k0_pay1
  rw [shapeCast_self]
  exact Ideal.ofBits_zero_f32

/-- The update: the old entry plus the row of `x` against the row of `w`. -/
theorem update_apply (x : Vec Ideal S2048x512 .f32) (w : Vec Ideal S1024x512 .f32) (acc : Vec Ideal S2048x1024 .f32)
    (r : Fin 2048) (cc : Fin 1024) :
    k0_pay2 (F := Ideal) x w acc (ix2 r cc) = acc (ix2 r cc) + ∑ j : Fin 512, x (ix2 r j) * w (ix2 cc j) := by
  unfold k0_pay2
  simp only [shapeCast_self]
  rw [addf_apply]
  congr 1
  refine (Ideal.matmul_constant_zero_apply dot_S2048x512_S1024x512_S2048x1024_1_1_0_0_n_n none _ _ (ix2 r cc)).trans ?_
  rw [← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 r cc) ((contrEquiv1 dot_S2048x512_S1024x512_S2048x1024_1_1_0_0_n_n 512 rfl rfl).symm k) = ix2 r k := funext fun a => Fin.ext (by
    match a with
    | ⟨0, _⟩ => exact lhs_mm_0 _ _
    | ⟨1, _⟩ => exact (lhs_mm_1 _ _).trans hk)
  have er : dot_S2048x512_S1024x512_S2048x1024_1_1_0_0_n_n.rhsIdx (ix2 r cc) ((contrEquiv1 dot_S2048x512_S1024x512_S2048x1024_1_1_0_0_n_n 512 rfl rfl).symm k) = ix2 cc k := funext fun a => Fin.ext (by
    match a with
    | ⟨0, _⟩ => exact rhs_mm_0 _ _
    | ⟨1, _⟩ => exact (rhs_mm_1 _ _).trans hk)
  rw [el, er]
  rfl

/-- The stored output: the accumulator entry plus the bias row's entry in the same column. -/
theorem store_apply (a : Vec Ideal S2048x1024 .f32) (b : Vec Ideal S1x1024 .f32) (r : Fin 2048) (cc : Fin 1024) :
    k0_pay3 (F := Ideal) a b (ix2 r cc) = a (ix2 r cc) + b (ix2 (0 : Fin 1) cc) := by
  unfold k0_pay3
  simp only [shapeCast_self]
  rw [addf_apply]
  congr 1
  exact broadcastTo_apply b broadcasts_S1x1024_S2048x1024 (ix2 r cc) (ix2 (0 : Fin 1) cc) (fun a => match a with
    | ⟨0, _⟩ => by show (0 : ℕ) = if (1 : ℕ) = 1 then 0 else r.val; rw [if_pos rfl]
    | ⟨1, _⟩ => by show cc.val = if (1024 : ℕ) = 1 then 0 else cc.val; rw [if_neg (by decide)])

end Cert.KernelIdeal.Payload

end
-- ==== Proof.BlockSum.lean ====
/-
  Splitting a contraction of length 4096 into eight consecutive blocks of 512.

  A sum over `i < 4096` is the sum over the block number `kb < 8` of the sums over the offset `j < 512` of the
  term at `512 * kb + j`: addition in a commutative monoid may be regrouped freely, so this needs no finiteness of
  the terms.  The block number ranges over `Finset.range 8` (the form in which a running sum over the first
  `k + 1` blocks grows by one block at a time, `Finset.sum_range_succ`), and the position is taken modulo 4096 so
  that the term is defined for every natural block number; for `kb < 8` the reduction does nothing.
-/
import Mathlib.Algebra.BigOperators.Fin
import Mathlib.Logic.Equiv.Fin.Basic
import Mathlib.Tactic.NormNum
import Mathlib.Tactic.Ring

namespace Cert.VqLinear

/-- Position `512 * kb + j` on the contracted axis, reduced modulo its length. -/
def kpos (kb : ℕ) (j : Fin 512) : Fin 4096 := ⟨(512 * kb + j.val) % 4096, Nat.mod_lt _ (by norm_num)⟩

theorem kpos_val (kb : ℕ) (j : Fin 512) (h : kb < 8) : (kpos kb j).val = 512 * kb + j.val := by
  have := j.isLt
  show (512 * kb + j.val) % 4096 = _
  omega

/-- The whole contraction is the sum of its eight blocks. -/
theorem sum_blocks {M : Type*} [AddCommMonoid M] (f : Fin 4096 → M) :
    ∑ kb ∈ Finset.range 8, ∑ j : Fin 512, f (kpos kb j) = ∑ i, f i := by
  rw [Finset.sum_range (fun kb => ∑ j : Fin 512, f (kpos kb j))]
  rw [← Fintype.sum_prod_type']
  refine Fintype.sum_equiv (finProdFinEquiv.trans (finCongr (by norm_num))) _ _ (fun p => ?_)
  congr 1
  apply Fin.ext
  have h1 := p.1.isLt
  have h2 := p.2.isLt
  rw [kpos_val _ _ h1]
  simp [finProdFinEquiv]
  ring

end Cert.VqLinear
-- ==== Proof.Blocks.lean ====
/-
  Where each window's block sits in its array.

  The grid has 4 × 4 × 8 points, numbered with the contraction step fastest: point `t` is row tile `t / 32`,
  column tile `t / 8 % 4`, contraction step `t % 8`.  At point `t`
  * the block of the left matrix (8192 × 4096) is rows `2048 * (t / 32) + r`, positions `512 * (t % 8) + j`;
  * the block of the weight matrix (4096 × 4096) is rows `1024 * (t / 8 % 4) + cc`, the same positions;
  * the block of the bias row (1 × 4096) is columns `1024 * (t / 8 % 4) + cc`;
  * the output block (of 8192 × 4096) is rows `2048 * (t / 32) + r`, columns `1024 * (t / 8 % 4) + cc`.
  Row and column numbers are written reduced modulo the array's extent, which changes nothing inside the grid and
  keeps them defined for every natural tile number.
-/
import proofs.«139722_j23802708754446_1_alg».proof.Proof.Gen.KernelIdeal.Frame
import proofs.«139722_j23802708754446_1_alg».proof.Proof.BlockSum
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.VqLinear

variable {F : FTy → Type} [FloatOps F]
variable (m : (ℓ : Loc nD τ sig) → Buf (Elt F) ℓ)

/-- Row `2048 * mi + r` of the left matrix. -/
def xrow (mi : ℕ) (r : Fin 2048) : Fin 8192 := ⟨(2048 * mi + r.val) % 8192, Nat.mod_lt _ (by norm_num)⟩
/-- Row `1024 * oi + cc` of the weight matrix, which is also column `1024 * oi + cc` of the result. -/
def wrow (oi : ℕ) (cc : Fin 1024) : Fin 4096 := ⟨(1024 * oi + cc.val) % 4096, Nat.mod_lt _ (by norm_num)⟩

theorem xrow_val (mi : ℕ) (r : Fin 2048) (h : mi < 4) : (xrow mi r).val = 2048 * mi + r.val := by
  have := r.isLt
  show (2048 * mi + r.val) % 8192 = _
  omega
theorem wrow_val (oi : ℕ) (cc : Fin 1024) (h : oi < 4) : (wrow oi cc).val = 1024 * oi + cc.val := by
  have := cc.isLt
  show (1024 * oi + cc.val) % 4096 = _
  omega

/-- The printed index maps in closed form, decided over the grid's 128 points. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The three input blocks at a point and the three arrays the region finds, at their literal types. -/
abbrev xblk (c : Dev nD) (t : Fin cfg0.N) : Vec F S2048x512 .f32 := iblk m c 0 t
abbrev wblk (c : Dev nD) (t : Fin cfg0.N) : Vec F S1024x512 .f32 := iblk m c 1 t
abbrev bblk (c : Dev nD) (t : Fin cfg0.N) : Vec F S1x1024 .f32 := iblk m c 2 t
abbrev xarr (c : Dev nD) : Vec F S8192x4096 .f32 := V m c main_v8
abbrev warr (c : Dev nD) : Vec F S4096x4096 .f32 := V m c main_v7
abbrev barr (c : Dev nD) : Vec F S1x4096 .f32 := V m c main_v9

theorem xblk_apply (c : Dev nD) (t : Fin cfg0.N) (r : Fin 2048) (j : Fin 512) :
    xblk m c t (ix2 r j) = xarr m c (ix2 (xrow (t.val / 32) r) (kpos (t.val % 8) j)) := by
  obtain ⟨e0, e1, -⟩ := idx_facts t
  have hN : t.val < 128 := lt_of_lt_of_eq t.isLt N_0
  have hr := r.isLt
  have hj := j.isLt
  show iblk m c 0 t (ix2 r j) = V m c main_v8 _
  unfold iblk
  rw [View.read_apply]
  show V m c main_v8 _ = V m c main_v8 _
  congr 1
  funext a
  apply Fin.ext
  match a with
  | ⟨0, _⟩ => show win0_0.index t (0 : Fin 2) * 2048 + 1 * r.val = (2048 * (t.val / 32) + r.val) % 8192; rw [e0]; omega
  | ⟨1, _⟩ => show win0_0.index t (1 : Fin 2) * 512 + 1 * j.val = (512 * (t.val % 8) + j.val) % 4096; rw [e1]; omega

theorem wblk_apply (c : Dev nD) (t : Fin cfg0.N) (cc : Fin 1024) (j : Fin 512) :
    wblk m c t (ix2 cc j) = warr m c (ix2 (wrow (t.val / 8 % 4) cc) (kpos (t.val % 8) j)) := by
  obtain ⟨-, -, e0, e1, -⟩ := idx_facts t
  have hN : t.val < 128 := lt_of_lt_of_eq t.isLt N_0
  have hr := cc.isLt
  have hj := j.isLt
  show iblk m c 1 t (ix2 cc j) = V m c main_v7 _
  unfold iblk
  rw [View.read_apply]
  show V m c main_v7 _ = V m c main_v7 _
  congr 1
  funext a
  apply Fin.ext
  match a with
  | ⟨0, _⟩ => show win0_1.index t (0 : Fin 2) * 1024 + 1 * cc.val = (1024 * (t.val / 8 % 4) + cc.val) % 4096; rw [e0]; omega
  | ⟨1, _⟩ => show win0_1.index t (1 : Fin 2) * 512 + 1 * j.val = (512 * (t.val % 8) + j.val) % 4096; rw [e1]; omega

theorem bblk_apply (c : Dev nD) (t : Fin cfg0.N) (cc : Fin 1024) :
    bblk m c t (ix2 (0 : Fin 1) cc) = barr m c (ix2 (0 : Fin 1) (wrow (t.val / 8 % 4) cc)) := by
  obtain ⟨-, -, -, -, e0, e1, -⟩ := idx_facts t
  have hN : t.val < 128 := lt_of_lt_of_eq t.isLt N_0
  have hr := cc.isLt
  show iblk m c 2 t (ix2 (0 : Fin 1) cc) = V m c main_v9 _
  unfold iblk
  rw [View.read_apply]
  show V m c main_v9 _ = V m c main_v9 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * cc.val = (1024 * (t.val / 8 % 4) + cc.val) % 4096; rw [e1]; omega

end Cert.KernelIdeal.Blocks

end
-- ==== Proof.Accum.lean ====
/-
  The scratch accumulator after every grid point, over the extended reals.

  Point `n` is row tile `n / 32`, column tile `n / 8 % 4`, contraction step `n % 8`.  After point `n` the
  scratch entry at `(r, cc)` is the sum, over the contraction blocks `kb ≤ n % 8` of the current sweep, of block
  `kb`'s contribution `∑ j < 512, X (2048 * (n / 32) + r, 512 * kb + j) * W (1024 * (n / 8 % 4) + cc, 512 * kb + j)`:
  a sweep's first step stores zero plus block 0 (and `0 + a = a`), every later step adds its block to what the
  step before left, and within a sweep the two tile numbers do not move.  By induction on the point.  At a
  sweep's last step (`n % 8 = 7`) the eight blocks make the whole contraction, and the output block's entry is
  that sum plus the bias entry of the column.
-/
import proofs.«139722_j23802708754446_1_alg».proof.Proof.Pieces
import proofs.«139722_j23802708754446_1_alg».proof.Proof.Payload
import proofs.«139722_j23802708754446_1_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.VqLinear Cert.KernelIdeal.Blocks Cert.KernelIdeal.Pieces
  Cert.KernelIdeal.Payload

variable (m : (ℓ : Loc nD τ sig) → Buf (Elt Ideal) ℓ)

/-- Contraction block `kb`'s contribution to entry `(r, cc)` of tile `(mi, oi)`. -/
def blockDot (X : Vec Ideal S8192x4096 .f32) (W : Vec Ideal S4096x4096 .f32) (mi oi : ℕ) (r : Fin 2048) (cc : Fin 1024)
    (kb : ℕ) : EReal :=
  ∑ j : Fin 512, X (ix2 (xrow mi r) (kpos kb j)) * W (ix2 (wrow oi cc) (kpos kb j))

/-- The block product the body forms at point `t` is that point's contraction block. -/
theorem step_dot (c : Dev nD) (t : Fin cfg0.N) (r : Fin 2048) (cc : Fin 1024) :
    ∑ j : Fin 512, xblk m c t (ix2 r j) * wblk m c t (ix2 cc j)
      = blockDot (xarr m c) (warr m c) (t.val / 32) (t.val / 8 % 4) r cc (t.val % 8) := by
  unfold blockDot
  refine Finset.sum_congr rfl fun j _ => ?_
  rw [xblk_apply, wblk_apply]

/-- A sweep's first step leaves block 0 alone. -/
theorem first_step (c : Dev nD) (t : Fin cfg0.N) (h0 : t.val % 8 = 0) (h1 : ¬t.val % 8 = 7) (r : Fin 2048) (cc : Fin 1024) :
    (outsAt0 m c t.val t.isLt).2 (ix2 r cc)
      = blockDot (xarr m c) (warr m c) (t.val / 32) (t.val / 8 % 4) r cc (t.val % 8) := by
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => h1 ((hcond0_1 t).mp h)) (xblk m c t) (wblk m c t) (bblk m c t)) (ix2 r cc)).trans ?_
  rw [update_apply, reset_apply, zero_add, step_dot]

/-- A later step adds its block to what the point before left. -/
theorem later_step (c : Dev nD) (n : ℕ) (h : n + 1 < cfg0.N) (h0 : ¬(n + 1) % 8 = 0) (r : Fin 2048) (cc : Fin 1024) :
    (outsAt0 m c (n + 1) h).2 (ix2 r cc)
      = (outsAt0 m c n (Nat.lt_of_succ_lt h)).2 (ix2 r cc)
        + blockDot (xarr m c) (warr m c) ((n + 1) / 32) ((n + 1) / 8 % 4) r cc ((n + 1) % 8) := by
  let t : Fin cfg0.N := ⟨n + 1, h⟩
  by_cases h1 : (n + 1) % 8 = 7
  · rw [outsAt0_C m c t h0 h1]
    dsimp only
    refine (congrFun (scratch_last (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h1) (xblk m c t) (wblk m c t) (bblk m c t)
      (outsAt0 m c n (Nat.lt_of_succ_lt h)).2) (ix2 r cc)).trans ?_
    rw [update_apply, step_dot]
  · rw [outsAt0_B m c t h0 h1]
    dsimp only
    refine (congrFun (scratch_middle (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) (fun h => h1 ((hcond0_1 t).mp h)) (xblk m c t) (wblk m c t) (bblk m c t)
      (outsAt0 m c n (Nat.lt_of_succ_lt h)).2) (ix2 r cc)).trans ?_
    rw [update_apply, step_dot]

/-- THE RUNNING SUM: after point `n` the scratch holds the current sweep's blocks `0 … n % 8`. -/
theorem scratch_eq (c : Dev nD) : ∀ (n : ℕ) (h : n < cfg0.N) (r : Fin 2048) (cc : Fin 1024),
    (outsAt0 m c n h).2 (ix2 r cc)
      = ∑ kb ∈ Finset.range (n % 8 + 1), blockDot (xarr m c) (warr m c) (n / 32) (n / 8 % 4) r cc kb
  | 0, h, r, cc => by
    have e := first_step m c ⟨0, h⟩ (Nat.zero_mod 8) (by show ¬(0 : ℕ) % 8 = 7; omega) r cc
    rw [show (0 : ℕ) % 8 + 1 = 1 from rfl, Finset.sum_range_one]
    exact e
  | n + 1, h, r, cc => by
    have hN : n + 1 < 128 := lt_of_lt_of_eq h N_0
    by_cases h0 : (n + 1) % 8 = 0
    · have e := first_step m c ⟨n + 1, h⟩ h0 (by show ¬(n + 1) % 8 = 7; omega) r cc
      rw [h0, show (0 : ℕ) + 1 = 1 from rfl, Finset.sum_range_one]
      rw [show ((⟨n + 1, h⟩ : Fin cfg0.N).val % 8) = 0 from h0] at e
      exact e
    · rw [later_step m c n h h0 r cc, scratch_eq c n (Nat.lt_of_succ_lt h) r cc]
      have e1 : (n + 1) / 32 = n / 32 := by omega
      have e2 : (n + 1) / 8 % 4 = n / 8 % 4 := by omega
      have e3 : (n + 1) % 8 = n % 8 + 1 := by omega
      rw [e1, e2, e3]
      exact (Finset.sum_range_succ (fun kb => blockDot (xarr m c) (warr m c) (n / 32) (n / 8 % 4) r cc kb) (n % 8 + 1)).symm

/-- The whole product with bias, index by index: row `i 0` of `X` against row `i 1` of `W`, plus the bias entry of
    column `i 1`. -/
def lin (X : Vec Ideal S8192x4096 .f32) (W : Vec Ideal S4096x4096 .f32) (B : Vec Ideal S1x4096 .f32) :
    Vec Ideal S8192x4096 .f32 :=
  fun i => (∑ k : Fin 4096, X (ix2 (i 0) k) * W (ix2 (i 1) k)) + B (ix2 (0 : Fin 1) (i 1))

/-- At a sweep's last step the output block's entry is the whole product's entry at the tile's row and column. -/
theorem out_eq (c : Dev nD) (t : Fin cfg0.N) (h7 : t.val % 8 = 7) (r : Fin 2048) (cc : Fin 1024) :
    (outsAt0 m c t.val t.isLt).1 (ix2 r cc)
      = lin (xarr m c) (warr m c) (barr m c) (ix2 (xrow (t.val / 32) r) (wrow (t.val / 8 % 4) cc)) := by
  obtain ⟨n, hn⟩ := t
  cases n with
  | zero => exact absurd h7 (by show ¬(0 : ℕ) % 8 = 7; omega)
  | succ n =>
    have hN : n + 1 < 128 := lt_of_lt_of_eq hn N_0
    have h7' : (n + 1) % 8 = 7 := h7
    have h0 : ¬(n + 1) % 8 = 0 := by omega
    let t : Fin cfg0.N := ⟨n + 1, hn⟩
    show (outsAt0 m c (n + 1) hn).1 (ix2 r cc) = _
    rw [outsAt0_C m c t h0 h7']
    dsimp only
    refine (congrFun (out_last (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h7') (xblk m c t) (wblk m c t) (bblk m c t)
      (outsAt0 m c n (Nat.lt_of_succ_lt hn)).2) (ix2 r cc)).trans ?_
    rw [store_apply, update_apply, step_dot, bblk_apply, scratch_eq m c n (Nat.lt_of_succ_lt hn) r cc]
    show (∑ kb ∈ Finset.range (n % 8 + 1), blockDot (xarr m c) (warr m c) (n / 32) (n / 8 % 4) r cc kb
        + blockDot (xarr m c) (warr m c) ((n + 1) / 32) ((n + 1) / 8 % 4) r cc ((n + 1) % 8))
        + barr m c (ix2 (0 : Fin 1) (wrow ((n + 1) / 8 % 4) cc)) = _
    have e1 : n / 32 = (n + 1) / 32 := by omega
    have e2 : n / 8 % 4 = (n + 1) / 8 % 4 := by omega
    have e3 : n % 8 + 1 = 7 := by omega
    rw [e1, e2, e3, h7', ← Finset.sum_range_succ]
    unfold lin blockDot
    rw [sum_blocks (fun k => xarr m c (ix2 (xrow ((n + 1) / 32) r) k) * warr m c (ix2 (wrow ((n + 1) / 8 % 4) cc) k))]

end Cert.KernelIdeal.Accum

end
-- ==== Proof.Spec.lean ====
/-
  The specification both programs meet: a linear layer with a weight matrix stored output-major.

  `linear x W bias` at `(b, s, o)` is `(∑ i < 4096, x (b, s, i) * W (o, i)) + bias o` — the input row against row
  `o` of the weight matrix (so the weight is used transposed), plus the output feature's bias — over the extended
  reals, with `W` whatever matrix the two programs look up (both look it up in the same way, and nothing here
  opens it).
-/
import Idealize.ShloMosaic.Lib.ValueIdx
import Idealize.ShloMosaic.PureOps.Ideal

noncomputable section

open Idealize.ShloMosaic Idealize.ShloMosaic.ValueIdx

namespace Cert.VqLinear

def linear (x : FVec Ideal ⟨3, ![4, 2048, 4096]⟩ .f32) (W : FVec Ideal ⟨2, ![4096, 4096]⟩ .f32)
    (bias : FVec Ideal ⟨1, ![4096]⟩ .f32) : FVec Ideal ⟨3, ![4, 2048, 4096]⟩ .f32 :=
  fun i => (∑ k : Fin 4096, x (ix3 (i 0) (i 1) k) * W (ix2 (i 2) k)) + bias (ix1 (i 2))

end Cert.VqLinear

end
-- ==== Proof.KValue.lean ====
/-
  What the idealized kernel's program computes: the specification.

  * Each write-back of the output window (at the last step of a contraction sweep) writes its block of ONE array,
    `lin X W B`: the entry at the tile's row and column is the whole contraction plus the column's bias.
  * The sixteen output tiles (4 row tiles × 4 column tiles) cover the 8192 × 4096 array: index `(a, b)` lies in the
    tile written at point `((a / 2048) * 4 + b / 1024) * 8 + 7`.  So the array ends at `lin X W B`.
  * Before the kernel the program reshapes `x` to 8192 × 4096 (row `2048 * b + s` is `x (b, s, ·)`), looks the weight
    matrix up, and reshapes the bias to a row; after it, it reshapes the result back to 4 × 2048 × 4096.  Read
    through these reshapes, `lin` of the reshaped arrays is `linear` of the arguments.
-/
import proofs.«139722_j23802708754446_1_alg».proof.Proof.Accum
import proofs.«139722_j23802708754446_1_alg».proof.Proof.Spec
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.VqLinear Cert.KernelIdeal.Blocks Cert.KernelIdeal.Accum

variable (m : (ℓ : Loc nD τ sig) → Buf (Elt Ideal) ℓ) (ρ : Dev nD → PrngReg)

/-- An index of the result array is in point `t`'s output block iff each coordinate is in the block's range. -/
theorem mem_blk (t : Fin cfg0.N) (i : S8192x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v10).slice (win0_3.rect t)).set ↔ _
  rw [View.set_slice_whole, Rect.mem_set_unit]
  exact Iff.rfl

/-- What a write-back writes is its block of `lin X W B`. -/
theorem flushed_eq (c : Dev nD) (t : Fin cfg0.N) (hf : (cfg0.win 3).flush t = true) :
    (dats m 0 c).flushed 3 t = ((cfg0.win 3).blk t).view.read (Elt Ideal) (lin (xarr m c) (warr m c) (barr m c)) := by
  have h7 : t.val % 8 = 7 := (flush0_3 t).mp hf
  obtain ⟨-, -, -, -, -, -, e6, e7⟩ := idx_facts t
  have hN : t.val < 128 := lt_of_lt_of_eq t.isLt N_0
  show (cfg0.win 3).cut (grid0.coords t) ((dats m 0 c).after 3 t) = _
  rw [after0_3]
  funext y
  show (outsAt0 m c t.val t.isLt).1 y = lin (xarr m c) (warr m c) (barr m c) (((cfg0.win 3).blk t).view.emb y)
  have hy0 : (y 0).val < 2048 := (y 0).isLt
  have hy1 : (y 1).val < 1024 := (y 1).isLt
  let r : Fin 2048 := y 0
  let cc : Fin 1024 := y 1
  have hy : (y : S2048x1024.Idx) = ix2 r cc := funext fun a => by
    match a with
    | ⟨0, _⟩ => rfl
    | ⟨1, _⟩ => rfl
  refine ((congrArg (outsAt0 m c t.val t.isLt).1 hy).trans (out_eq m c t h7 r cc)).trans ?_
  congr 1
  funext a
  apply Fin.ext
  match a with
  | ⟨0, _⟩ =>
    show (xrow (t.val / 32) r).val = win0_3.index t (0 : Fin 2) * 2048 + 1 * r.val
    rw [e6, xrow_val (t.val / 32) r (by omega)]; omega
  | ⟨1, _⟩ =>
    show (wrow (t.val / 8 % 4) cc).val = win0_3.index t (1 : Fin 2) * 1024 + 1 * cc.val
    rw [e7, wrow_val (t.val / 8 % 4) cc (by omega)]; omega

/-- Every index of the result array lies in some written tile. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hlt : ((i 0).val / 2048 * 4 + (i 1).val / 1024) * 8 + 7 < cfg0.N := by
    rw [show cfg0.N = 128 from N_0]; omega
  refine ⟨⟨_, hlt⟩, (flush0_3 _).mpr (by show (((i 0).val / 2048 * 4 + (i 1).val / 1024) * 8 + 7) % 8 = 7; omega), ?_⟩
  rw [mem_blk]
  obtain ⟨-, -, -, -, -, -, e6, e7⟩ := idx_facts ⟨_, hlt⟩
  intro a
  match a with
  | ⟨0, _⟩ =>
    show win0_3.index ⟨_, hlt⟩ (0 : Fin 2) * 2048 ≤ (i 0).val ∧ (i 0).val < win0_3.index ⟨_, hlt⟩ (0 : Fin 2) * 2048 + 2048
    rw [e6]; dsimp only; omega
  | ⟨1, _⟩ =>
    show win0_3.index ⟨_, hlt⟩ (1 : Fin 2) * 1024 ≤ (i 1).val ∧ (i 1).val < win0_3.index ⟨_, hlt⟩ (1 : Fin 2) * 1024 + 1024
    rw [e7]; dsimp only; omega

/-- So the kernel's result array ends at `lin X W B`. -/
theorem final (c : Dev nD) : (dats m 0 c).arrAt 3 cfg0.N = lin (xarr m c) (warr m c) (barr m c) :=
  (dats m 0 c).arrAt_eq_of_cover 3 _ (flushed_eq m c) cover

/-- The reshape after the kernel reads that array. -/
theorem tail_eq (c : Dev nD) :
    Pipeline.afterTail₀ cfgs (dats m) 0 (V0 m) [hostOps1] c main_v11
      = shapeCast S4x2048x4096 (lin (xarr m c) (warr m c) (barr m c)) shapeCasts_S8192x4096_S4x2048x4096 := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v10)
      = lin (xarr m c) (warr m c) (barr m c) :=
    (Pipeline.withArrays_arr spec0 launch0.win.arr_inj c _ _ 3).trans (final m c)
  rw [e]
  rfl

/-- The weight matrix the program looks up before the kernel: the table gathered by the labels (negative labels
    wrapped once by the table's length), reshaped to 4096 × 4096.  Kept closed. -/
def wmat (x1 : (⟨S256, .f32⟩ : BufTy).Contents (Elt Ideal)) (x2 : (⟨S16777216, .i32⟩ : BufTy).Contents (Elt Ideal)) :
    (⟨S4096x4096, .f32⟩ : BufTy).Contents (Elt Ideal) :=
  shapeCast _ (Host.gather gather_S256_S16777216x1_S16777216_n_0_n_n_0_1_1 (x1) (broadcastInDim S16777216x1 ![0] bcast_S16777216_S16777216x1_0 (select (cmpi .slt (x2) (broadcastInDim S16777216 ![] bcast_S_S16777216 (constantI S_ 32 0#32))) (addi (x2) (broadcastInDim S16777216 ![] bcast_S_S16777216 (constantI S_ 32 256#32))) (x2)))) shapeCasts_S16777216_S4096x4096

/-- The three arrays the kernel's windows stage, as the host lines before it leave them. -/
theorem xarr_eq (c : Dev nD) :
    xarr m c = shapeCast S8192x4096 (m ((c : Thread nD τ).loc main_arg0)) shapeCasts_S4x2048x4096_S8192x4096 := by
  show StableHlo.after hostOps0 (fun b => m (c, b)) (Proc.devRef .tc main_v8) = _
  after_results
  rfl
theorem barr_eq (c : Dev nD) :
    barr m c = shapeCast S1x4096 (m ((c : Thread nD τ).loc main_arg3)) shapeCasts_S4096_S1x4096 := by
  show StableHlo.after hostOps0 (fun b => m (c, b)) (Proc.devRef .tc main_v9) = _
  after_results
  rfl
theorem warr_eq (c : Dev nD) :
    warr m c = wmat (m ((c : Thread nD τ).loc main_arg1)) (m ((c : Thread nD τ).loc main_arg2)) := by
  show StableHlo.after hostOps0 (fun b => m (c, b)) (Proc.devRef .tc main_v7) = _
  after_results
  rfl

/-- Row `2048 * b + s` of the reshaped input is `x (b, s, ·)`. -/
theorem reshape_x (x : FVec Ideal S4x2048x4096 .f32) (b : Fin 4) (s : Fin 2048) (k : Fin 4096) (row : Fin 8192)
    (hrow : row.val = 2048 * b.val + s.val) :
    shapeCast S8192x4096 x shapeCasts_S4x2048x4096_S8192x4096 (ix2 row k) = x (ix3 b s k) :=
  shapeCast_apply x shapeCasts_S4x2048x4096_S8192x4096 (ix2 row k) (ix3 b s k) (by
    rw [Shape.rowMajor_val_three, Shape.rowMajor_val_two]
    show (b.val * 2048 + s.val) * 4096 + k.val = row.val * 4096 + k.val
    rw [hrow]; ring)

/-- The bias as a row reads the bias. -/
theorem reshape_b (bias : FVec Ideal S4096 .f32) (o : Fin 4096) :
    shapeCast S1x4096 bias shapeCasts_S4096_S1x4096 (ix2 (0 : Fin 1) o) = bias (ix1 o) :=
  shapeCast_apply bias shapeCasts_S4096_S1x4096 (ix2 (0 : Fin 1) o) (ix1 o) (by
    rw [Shape.rowMajor_val_one, Shape.rowMajor_val_two]
    show o.val = 0 * 4096 + o.val
    omega)

/-- Read through the reshapes around the kernel, `lin` of the reshaped arrays is `linear`: entry `(b, s, o)` of the
    result is entry `(2048 * b + s, o)` of the 8192 × 4096 product, whose row `2048 * b + s` of the reshaped input is
    `x (b, s, ·)`. -/
theorem lin_reshape (x : FVec Ideal S4x2048x4096 .f32) (W : FVec Ideal S4096x4096 .f32) (bias : FVec Ideal S4096 .f32) :
    shapeCast S4x2048x4096 (lin (shapeCast S8192x4096 x shapeCasts_S4x2048x4096_S8192x4096) W
        (shapeCast S1x4096 bias shapeCasts_S4096_S1x4096)) shapeCasts_S8192x4096_S4x2048x4096
      = linear x W bias := by
  funext i
  obtain ⟨b, s, o, rfl⟩ : ∃ (b : Fin 4) (s : Fin 2048) (o : Fin 4096), i = ix3 b s o := ⟨i 0, i 1, i 2, eq_ix3 i⟩
  have hb := b.isLt
  have hs := s.isLt
  let row : Fin 8192 := ⟨2048 * b.val + s.val, by omega⟩
  rw [shapeCast_apply _ shapeCasts_S8192x4096_S4x2048x4096 (ix3 b s o) (ix2 row o) (by
    rw [Shape.rowMajor_val_three, Shape.rowMajor_val_two]
    show (2048 * b.val + s.val) * 4096 + o.val = (b.val * 2048 + s.val) * 4096 + o.val
    ring)]
  unfold lin linear
  show (∑ k : Fin 4096, shapeCast S8192x4096 x shapeCasts_S4x2048x4096_S8192x4096 (ix2 row k) * W (ix2 o k))
      + shapeCast S1x4096 bias shapeCasts_S4096_S1x4096 (ix2 (0 : Fin 1) o)
    = (∑ k : Fin 4096, x (ix3 b s k) * W (ix2 o k)) + bias (ix1 o)
  rw [reshape_b]
  congr 1
  refine Finset.sum_congr rfl fun k _ => ?_
  rw [reshape_x x b s k row rfl]

theorem result_eq (c : Dev nD) :
    shapeCast S4x2048x4096 (lin (xarr m c) (warr m c) (barr m c)) shapeCasts_S8192x4096_S4x2048x4096
      = linear (m ((c : Thread nD τ).loc main_arg0)) (wmat (m ((c : Thread nD τ).loc main_arg1)) (m ((c : Thread nD τ).loc main_arg2)))
          (m ((c : Thread nD τ).loc main_arg3)) := by
  rw [xarr_eq, barr_eq, warr_eq]
  exact lin_reshape _ _ _

/-- THE RUN, READ: the program's result is `linear` of its arguments, which it leaves unchanged. -/
theorem run : θ_run defs (onTc (τ := τ) (main (F := Ideal))) ⟨m, fun _ => 0, ρ⟩ fun r => ∀ c : Dev nD,
      r.2.mem ((c : Thread nD τ).loc main_v11)
        = linear (m ((c : Thread nD τ).loc main_arg0)) (wmat (m ((c : Thread nD τ).loc main_arg1)) (m ((c : Thread nD τ).loc main_arg2)))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(((h c).2 main_v11 (Pipeline.mem_restRefs_of main_v11 (by decide) (by decide))).trans (tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefValue.lean ====
/-
  The reference computes the specification.

  Its result is the contraction of `x`'s last axis with the weight matrix's second axis, plus the bias broadcast
  over the batch and sequence axes.  Read at an index `(b, s, o)` the contraction is `∑ k, x (b, s, k) * W (o, k)`
  and the double broadcast of the bias reads the bias at `o`: `linear` of the arguments, with `W` the matrix the
  reference looks up (its gather of the table by the labels, reshaped to 4096 × 4096, kept closed).
-/
import proofs.«139722_j23802708754446_1_alg».proof.Proof.Gen.ReferenceIdeal.Read
import proofs.«139722_j23802708754446_1_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.VqLinear

theorem ref_eq (x0 : (⟨S4x2048x4096, .f32⟩ : BufTy).Contents (Elt Ideal)) (x1 : (⟨S256, .f32⟩ : BufTy).Contents (Elt Ideal))
    (x2 : (⟨S16777216, .i32⟩ : BufTy).Contents (Elt Ideal)) (x3 : (⟨S4096, .f32⟩ : BufTy).Contents (Elt Ideal)) :
    val_main_v11 (F := Ideal) x0 x1 x2 x3 = linear x0 (val_main_v7 (F := Ideal) x1 x2) x3 := by
  funext i
  have el : ∀ k : Fin 4096, lidx_main_v8 i k = ix3 (i 0) (i 1) k := fun k => funext fun a => Fin.ext (by
    match a with
    | ⟨0, _⟩ => rfl
    | ⟨1, _⟩ => rfl
    | ⟨2, _⟩ => rfl)
  have er : ∀ k : Fin 4096, ridx_main_v8 i k = ix2 (i 2) k := fun k => funext fun a => Fin.ext (by
    match a with
    | ⟨0, _⟩ => rfl
    | ⟨1, _⟩ => rfl)
  have eb : idx_main_v9 (idx_main_v10 i) = ix1 (i 2) := funext fun a => Fin.ext (by
    match a with
    | ⟨0, _⟩ => rfl)
  rw [val_main_v11_apply, val_main_v8_apply, val_main_v10_apply, val_main_v9_apply]
  unfold linear
  simp only [el, er, eb, Ideal.addf_def]
  rfl

end Cert.ReferenceIdeal.RefValue

end
-- ==== Proof.lean ====
/-
  The certificate of the vector-quantised linear layer: `y = x · Wᵀ + bias` with the weight matrix looked up from a
  256-entry table by 16,777,216 labels.

  Both programs look the weight matrix `W` (4096 × 4096, output-major) up by the same gather and reshape, and then
  * the kernel reshapes `x` to 8192 × 4096, tiles the product into 2048 × 1024 output tiles, sweeps the contraction
    axis in eight blocks of 512 with a running sum in a scratch buffer (zeroed at each sweep's first block), adds
    the bias at the last block and writes the tile back; then reshapes the result to 4 × 2048 × 4096;
  * the reference contracts `x`'s last axis with `W`'s second axis in one operation and adds the broadcast bias.
  Over the extended reals both are `linear x W bias`: the narrowing of the two blocks to a shorter float format is
  the identity there, `0 + a = a`, and the eight block sums regroup into the one sum over the contraction axis
  (addition is commutative and associative on the extended reals, so the finiteness of the inputs is never used).
  The ideal pass rewrote nothing, so the kernel's idealization is the kernel's own text.

  The two kernel frames are the generated frame runs; the reference's frame is its generated run with the result
  dropped.
-/
import proofs.«139722_j23802708754446_1_alg».proof.Defs
import proofs.«139722_j23802708754446_1_alg».proof.Proof.Gen.Kernel
import proofs.«139722_j23802708754446_1_alg».proof.Proof.Gen.Kernel.Skeleton
import proofs.«139722_j23802708754446_1_alg».proof.Proof.Gen.Kernel.Launch
import proofs.«139722_j23802708754446_1_alg».proof.Proof.Gen.Kernel.Points
import proofs.«139722_j23802708754446_1_alg».proof.Proof.Gen.Kernel.Frame
import proofs.«139722_j23802708754446_1_alg».proof.Proof.Gen.KernelIdeal
import proofs.«139722_j23802708754446_1_alg».proof.Proof.Gen.KernelIdeal.Skeleton
import proofs.«139722_j23802708754446_1_alg».proof.Proof.Gen.KernelIdeal.Launch
import proofs.«139722_j23802708754446_1_alg».proof.Proof.Gen.KernelIdeal.Points
import proofs.«139722_j23802708754446_1_alg».proof.Proof.Gen.KernelIdeal.Frame
import proofs.«139722_j23802708754446_1_alg».proof.Proof.Gen.ReferenceIdeal
import proofs.«139722_j23802708754446_1_alg».proof.Proof.Gen.ReferenceIdeal.Run
import proofs.«139722_j23802708754446_1_alg».proof.Proof.Gen.ReferenceIdeal.Read
import proofs.«139722_j23802708754446_1_alg».proof.Proof.Gen.Pre_finite_inputs
import proofs.«139722_j23802708754446_1_alg».proof.Proof.KValue
import proofs.«139722_j23802708754446_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end at `linear` of the arguments: the kernel's by its value run, the reference's by its generated run
    read at an index; the two weight look-ups are one term once the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
